-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 6
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Data.lean ====
/-
  The graph-convolution kernel `out = max(adj · (x · W) + b, 0)` on a grid of 25 row tiles of 400 rows.
  What each grid point finds and leaves, named once:

  * every input window's staging buffer holds the window's block of its array (`iblk`): the whole of `x`, of `W`
    and of the bias row at every point, and rows `400 t … 400 t + 199` and `400 t + 200 … 400 t + 399` of the
    adjacency for its two windows (one array read through two windows, each holding half of the array's share);
  * the scratch holds the product `x · W` (`scr`) from the first point on: the first point stores it, every
    point reads it and none stores into it again;
  * the output tile is two stacked half tiles, each `max(a · scr + b, 0)` of its adjacency half `a` (`outBlk`).
-/
import proofs.«173262_g47150150975849_cont_8to1_c_844_7_alg».proof.Proof.Gen.Kernel.Launch
import proofs.«173262_g47150150975849_cont_8to1_c_844_7_alg».proof.Proof.Gen.Kernel.Skeleton
import proofs.«173262_g47150150975849_cont_8to1_c_844_7_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

variable (m : (ℓ : Loc nD τ sig) → Buf (Elt F) ℓ)

/-- The TensorCore buffers of core `c` as the region finds them: the launch memory after the one host
    operation before it (the bias reshaped to a row). -/
abbrev V (c : Dev nD) (b : Ref sig .tc) : Buf (Elt F) ((c : Thread nD τ).loc b) :=
  StableHlo.after hostOps0 (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The grid's first point. -/
abbrev t0 : Fin cfg0.N := ⟨0, by decide⟩

/-- The typed blocks: `x`, `W`, the bias row, and the two adjacency half tiles of point `t`. -/
abbrev xB (c : Dev nD) (t : Fin cfg0.N) : Vec F S10000x128 .f32 := iblk m c 0 t
abbrev wB (c : Dev nD) (t : Fin cfg0.N) : Vec F S128x128 .f32 := iblk m c 1 t
abbrev bB (c : Dev nD) (t : Fin cfg0.N) : Vec F S1x128 .f32 := iblk m c 2 t
abbrev aLo (c : Dev nD) (t : Fin cfg0.N) : Vec F S200x10000 .f32 := iblk m c 3 t
abbrev aHi (c : Dev nD) (t : Fin cfg0.N) : Vec F S200x10000 .f32 := iblk m c 4 t

/-- What the scratch holds after the first point: the product `x · W`, as the first point computes it. -/
def scr (c : Dev nD) : Vec F S10000x128 .f32 := k0_pay1 (xB m c t0) (wB m c t0)

/-- The rectangles of the two half-tile stores into the 400-row output tile. -/
abbrev rLo : Rect S400x128 := Rect.unit (s := S400x128) ![0, 0] S200x128.size Facts₀.inb_S400x128_S200x128_0_0
abbrev rHi : Rect S400x128 := Rect.unit (s := S400x128) ![200, 0] S200x128.size Facts₀.inb_S400x128_S200x128_200_0

/-- The output tile a point leaves: rows 0–199 from the first adjacency half, rows 200–399 from the second, each
    `max(a · s + b, 0)` (the later store listed first). -/
def outBlk (a0 a1 : Vec F S200x10000 .f32) (s : Vec F S10000x128 .f32) (b : Vec F S1x128 .f32) : Vec F S400x128 .f32 :=
  View.canon [(⟨rHi, k0_pay3 a1 s b⟩ : View.Piece (Elt F) S400x128 .f32), ⟨rLo, k0_pay2 a0 s b⟩]

/-- The scratch as a memref. -/
abbrev scM : Memref sig .tc .vmem S10000x128 .f32 := Memref.whole cc0_scratch0

/-- The region invariant before position `n`: the scratch at anything before the first point, at `x · W` afterwards. -/
def PhiS (c : Dev nD) : ℕ → sProp 𝕄
  | 0 => iprop(∃ d, owns (c : Thread nD τ) scM fullShare d)
  | _ + 1 => owns (c : Thread nD τ) scM fullShare (scr m c)

/-- The proof data of the pipeline on core `c`. The adjacency is read through windows 3 and 4, each holding half of
    its share; every other input array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (aLo m c t) (aHi m c t) (scr m c) (bB m c t)
  Φ t := PhiS m c t.val
  q w := match w with
    | ⟨3, _⟩ => fullShare.left
    | ⟨4, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlk (aLo m c t) (aHi m c t) (scr m c) (bB m c t) := by dsimp only [dats]

end Cert.Kernel.Hand

end
-- ==== Proof.K.Run.lean ====
/-
  The kernel body run once on whole staging buffers, in each of its two control cases: at the first grid point it
  also computes `x · W` into the scratch; at every other point it reads the scratch as it found it.
-/
import proofs.«173262_g47150150975849_cont_8to1_c_844_7_alg».proof.Proof.K.Data
import Idealize.ShloMosaic.Lib.Tactic
import Idealize.ShloMosaic.Lib.Ring
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's branch condition: the grid coordinate is zero. -/
abbrev isFirst (i : grid0.Coords) : Prop :=
  (Scalar.cmpi .ne (Scalar.extui (Scalar.cmpi .eq (BitVec.ofNat 32 (i 0).val) 0#32)) 0#32) = 1#1

/-- The zero offsets, however spelt. -/
theorem hz2 : (![0, 0] : Fin 2 → Nat) = fun _ => 0 := by funext a; fin_cases a <;> rfl

/-- The two half-tile stores cover the 400-row tile. -/
theorem outCover (p3 p2 : S200x128.Idx → Elt F .f32) (y : S400x128.Idx) :
    ∃ pc ∈ [(⟨rHi, p3⟩ : View.Piece (Elt F) S400x128 .f32), ⟨rLo, p2⟩], y ∈ pc.1.set :=
  View.cover_of_tiledL (s := S400x128) _ ![200, 128] (by sl_kernel_rfl) y

set_option maxHeartbeats 1000000 in
/-- Away from the first point: the scratch is only read. -/
theorem run_later (c : Dev nD) (i : grid0.Coords) (hi : ¬ isFirst i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S200x10000 .f32) (harg4 : arg4.IsWhole)
    (arg5 : Memref sig .tc .vmem S200x10000 .f32) (harg5 : arg5.IsWhole) (arg6 : Memref sig .tc .vmem S400x128 .f32) (harg6 : arg6.IsWhole)
    (arg7 : Memref sig .tc .vmem S10000x128 .f32) (harg7 : arg7.IsWhole)
    (x0 : Vec F S10000x128 .f32) (w0 : Vec F S128x128 .f32) (b0 : Vec F S1x128 .f32) (a0 a1 : Vec F S200x10000 .f32)
    (s0 : Vec F S10000x128 .f32) (E : Set ℕ) (K : PUnit → sProp 𝕄) :
    iprop(owns (c : Thread nD τ) arg1 fullShare x0 ∗ owns (c : Thread nD τ) arg2 fullShare w0 ∗ owns (c : Thread nD τ) arg3 fullShare b0
        ∗ owns (c : Thread nD τ) arg4 fullShare a0 ∗ owns (c : Thread nD τ) arg5 fullShare a1
        ∗ (∃ d, owns (c : Thread nD τ) arg6 fullShare d) ∗ owns (c : Thread nD τ) arg7 fullShare s0
        ∗ (iprop(owns (c : Thread nD τ) arg1 fullShare x0 ∗ owns (c : Thread nD τ) arg2 fullShare w0 ∗ owns (c : Thread nD τ) arg3 fullShare b0
            ∗ owns (c : Thread nD τ) arg4 fullShare a0 ∗ owns (c : Thread nD τ) arg5 fullShare a1
            ∗ owns (c : Thread nD τ) arg6 fullShare (outBlk a0 a1 s0 b0) ∗ owns (c : Thread nD τ) arg7 fullShare s0) -∗ K ⟨⟩))
      ⊢ wp frame (wpE (defs₀ (F := F)) Variants.none c none) E
          (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7
  sl_exec (disch := exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (outCover _ _)]
    unfold outBlk
    simp only [View.readAt_eq_ld, harg3.read_unread, harg4.read_unread, harg5.read_unread, harg7.read_unread,
      View.ld_unit_zero (S := S200x10000) hz2, View.ld_unit_zero (S := S10000x128) hz2, View.ld_unit_zero (S := S1x128) hz2]
  iexists _; isplitr; · ipureintro; exact harg7.read_unread _
  iexact H7

set_option maxHeartbeats 1000000 in
/-- At the first point: the scratch, found at anything, is left at `x · W`, which both half tiles then read. -/
theorem run_first (c : Dev nD) (i : grid0.Coords) (hi : isFirst i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S200x10000 .f32) (harg4 : arg4.IsWhole)
    (arg5 : Memref sig .tc .vmem S200x10000 .f32) (harg5 : arg5.IsWhole) (arg6 : Memref sig .tc .vmem S400x128 .f32) (harg6 : arg6.IsWhole)
    (arg7 : Memref sig .tc .vmem S10000x128 .f32) (harg7 : arg7.IsWhole)
    (x0 : Vec F S10000x128 .f32) (w0 : Vec F S128x128 .f32) (b0 : Vec F S1x128 .f32) (a0 a1 : Vec F S200x10000 .f32)
    (E : Set ℕ) (K : PUnit → sProp 𝕄) :
    iprop(owns (c : Thread nD τ) arg1 fullShare x0 ∗ owns (c : Thread nD τ) arg2 fullShare w0 ∗ owns (c : Thread nD τ) arg3 fullShare b0
        ∗ owns (c : Thread nD τ) arg4 fullShare a0 ∗ owns (c : Thread nD τ) arg5 fullShare a1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare w0 ∗ owns (c : Thread nD τ) arg3 fullShare b0
            ∗ owns (c : Thread nD τ) arg4 fullShare a0 ∗ owns (c : Thread nD τ) arg5 fullShare a1
            ∗ owns (c : Thread nD τ) arg6 fullShare (outBlk a0 a1 (k0_pay1 x0 w0) b0) ∗ owns (c : Thread nD τ) arg7 fullShare (k0_pay1 x0 w0)) -∗ K ⟨⟩))
      ⊢ wp frame (wpE (defs₀ (F := F)) Variants.none c none) E
          (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3
  obtain rfl := harg4.eq_unread hf4; obtain rfl := harg5.eq_unread hf5
  sl_exec (disch := exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (outCover _ _)]
    unfold outBlk
    sl_unfold_words
    simp only [View.readAt_eq_ld, harg1.read_unread, harg2.read_unread, harg3.read_unread, harg4.read_unread, harg5.read_unread,
      View.readCov_unit_zero (S := S10000x128) _ hz2,
      View.ld_unit_zero (S := S200x10000) hz2, View.ld_unit_zero (S := S10000x128) hz2, View.ld_unit_zero (S := S1x128) hz2,
      View.ld_unit_zero (S := S128x128) hz2]
  iexists _; isplitr
  swap; · iexact H7
  ipureintro
  sl_unfold_words
  rw [View.read_writes_eq_canon _ _ _ (fun y => ⟨_, List.mem_singleton_self _, View.mem_set_unit_zero hz2 Facts₀.inb_S10000x128_S10000x128_0_0 y⟩),
    View.canon_unit_zero hz2]
  simp only [View.readAt_eq_ld, harg1.read_unread, harg2.read_unread, View.ld_unit_zero (S := S10000x128) hz2,
    View.ld_unit_zero (S := S128x128) hz2]

end Cert.Kernel.Hand

end
-- ==== Proof.K.Obligation.lean ====
/-
  The body obligation of the pipeline: at every grid point, from the invariant and the six windows' current staging
  buffers, the kernel body runs to the invariant at the next point and the buffers at what the proof data name.
  Every input window's buffer holds its block whether fetched at the point or not; the output's holds anything
  (it is written back at every point) and is overwritten whole by the two half-tile stores; the scratch holds
  anything before the first point and `x · W` from then on.
-/
import proofs.«173262_g47150150975849_cont_8to1_c_844_7_alg».proof.Proof.K.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The branch is taken at the first grid point only. -/
theorem hfirst : ∀ t : Fin cfg0.N, isFirst (grid0.coords t) ↔ t.val = 0 :=
  (by decide +kernel : ∀ t : Fin grid0.N, isFirst (grid0.coords t) ↔ t.val = 0)

/-- No window is idle at any point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel

/-- Each input window's current staging buffer holds its block at every point, fetched there or not: the body
    leaves the block in place, and an unfetched block's index has not moved. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)

/-- After any point the scratch holds `x · W`. -/
theorem PhiS_pos (c : Dev nD) (n : ℕ) (h : n ≠ 0) : PhiS m c n = owns (c : Thread nD τ) scM fullShare (scr m c) := by
  cases n with
  | zero => exact absurd rfl h
  | succ n => rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 2000000 in
/-- The body at any point, by the case of its branch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).leavesExact 0 t = owns (c : Thread nD τ) (st0_0 t) fullShare ((dats m 0 c).after 0 t) from by
        unfold Dat.leavesExact; rw [live_0 t], after_0,
    show (dats m 0 c).leavesExact 1 t = owns (c : Thread nD τ) (st0_1 t) fullShare ((dats m 0 c).after 1 t) from by
        unfold Dat.leavesExact; rw [live_1 t], after_1,
    show (dats m 0 c).leavesExact 2 t = owns (c : Thread nD τ) (st0_2 t) fullShare ((dats m 0 c).after 2 t) from by
        unfold Dat.leavesExact; rw [live_2 t], after_2,
    show (dats m 0 c).leavesExact 3 t = owns (c : Thread nD τ) (st0_3 t) fullShare ((dats m 0 c).after 3 t) from by
        unfold Dat.leavesExact; rw [live_3 t], after_3,
    show (dats m 0 c).leavesExact 4 t = owns (c : Thread nD τ) (st0_4 t) fullShare ((dats m 0 c).after 4 t) from by
        unfold Dat.leavesExact; rw [live_4 t], after_4,
    show (dats m 0 c).leavesExact 5 t = owns (c : Thread nD τ) (st0_5 t) fullShare ((dats m 0 c).after 5 t) from by
        unfold Dat.leavesExact; rw [live_5 t], after_5]
  rw [show (dats m 0 c).Φ t.succ = owns (c : Thread nD τ) scM fullShare (scr m c) from rfl,
    show (dats m 0 c).Φ t.castSucc = PhiS m c t.val from by dsimp only [dats]; simp only [Fin.coe_castSucc]]
  by_cases hz : t.val = 0
  · obtain rfl : t = t0 := Fin.ext hz
    rw [show PhiS m c (t0 : Fin cfg0.N).val = iprop(∃ d, owns (c : Thread nD τ) scM fullShare d) from rfl]
    unfold scr
    iintro ⟨HS, Ho, ⟨%d0, H0⟩, ⟨%d1, H1⟩, ⟨%d2, H2⟩, ⟨%d3, H3⟩, ⟨%d4, H4⟩, ⟨%d5, H5⟩⟩
    iapply (run_first c (grid0.coords t0) ((hfirst t0).mpr rfl) _ _ _ _ _ _ _ _ _ _ _ _ _ _
      (xB m c t0) (wB m c t0) (bB m c t0) (aLo m c t0) (aHi m c t0) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5
  · rw [PhiS_pos m c _ hz]
    iintro ⟨HS, Ho, ⟨%d0, H0⟩, ⟨%d1, H1⟩, ⟨%d2, H2⟩, ⟨%d3, H3⟩, ⟨%d4, H4⟩, ⟨%d5, H5⟩⟩
    iapply (run_later c (grid0.coords t) (fun h => hz ((hfirst t).mp h)) _ _ _ _ _ _ _ _ _ _ _ _ _ _
      (xB m c t) (wB m c t) (bB m c t) (aLo m c t) (aHi m c t) (scr m c) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The launch side of the graph-convolution kernel's run: how the program's launch memory becomes the region's
  proof data and how the region's exit is read back against the final state.

  * The one host operation before the region reshapes the bias into a row; it writes no argument, so the region
    finds the four arguments as launched (`V_main_arg0` … `V_main_arg3`).
  * Five distinct buffers stand behind the six windows: the adjacency is read through two windows, and its full
    share is dealt in halves, the left to the first and the right to the second; every other array is held whole
    (`hsplit`).
  * The scratch is the only scoped buffer that is no staging buffer: before the first point it is held at some
    contents (`hin`); after the last point it is held at `scr`, the first point's product of its `x` and `W`
    blocks, and those contents are then forgotten (`hout`).
  * The bias argument bypasses the region and is read back unchanged at the end.
  From the body obligation at every point, `run_of_body` is the run of the whole program in the sense of `θ_run`,
  with this post: the result array holds the write-backs of all 25 points (`arrAt 5 N`) and every argument holds
  what it held at launch.
-/
import proofs.«173262_g47150150975849_cont_8to1_c_844_7_alg».proof.Proof.K.Data
import Idealize.ShloMosaic.Lib.Pipeline.Launch
import Idealize.ShloMosaic.Lib.Pipeline.Kit
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one host operation writes the bias row only: the arguments are the launch memory. -/
theorem V_main_arg0 (c : Dev nD) : V m c main_arg0 = m ((c : Thread nD τ).loc main_arg0) := by
  dsimp only [V, hostOps0]; after_results
theorem V_main_arg1 (c : Dev nD) : V m c main_arg1 = m ((c : Thread nD τ).loc main_arg1) := by
  dsimp only [V, hostOps0]; after_results
theorem V_main_arg2 (c : Dev nD) : V m c main_arg2 = m ((c : Thread nD τ).loc main_arg2) := by
  dsimp only [V, hostOps0]; after_results
theorem V_main_arg3 (c : Dev nD) : V m c main_arg3 = m ((c : Thread nD τ).loc main_arg3) := by
  dsimp only [V, hostOps0]; after_results

theorem share_0 (c : Dev nD) : (dats m 0 c).share 0 = fullShare := rfl
theorem share_1 (c : Dev nD) : (dats m 0 c).share 1 = fullShare := rfl
theorem share_2 (c : Dev nD) : (dats m 0 c).share 2 = fullShare := rfl
theorem share_3 (c : Dev nD) : (dats m 0 c).share 3 = fullShare.left := rfl
theorem share_4 (c : Dev nD) : (dats m 0 c).share 4 = fullShare.right := rfl
theorem share_5 (c : Dev nD) : (dats m 0 c).share 5 = fullShare := rfl

/-- The five distinct buffers behind the six windows, one by one. -/
theorem arrBufs0_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg2) ↦{fullShare} W main_arg2)
          ∗ (((c : Thread nD τ).loc main_v0) ↦{fullShare} W main_v0) ∗ (((c : Thread nD τ).loc main_arg1) ↦{fullShare} W main_arg1)
          ∗ (((c : Thread nD τ).loc main_v1) ↦{fullShare} W main_v1)) := by
  unfold Pipeline.arrBufs
  exact bigSep_eq_bigSepL_of_eq [main_arg0, main_arg2, main_v0, main_arg1, main_v1] (by decide) (by decide) _

theorem hsplit (c : Dev nD) : (Pipeline.arrBufs spec0 c (V m c) : sProp 𝕄) ⊢ (dats m 0 c).arrays ((dats m 0 c).arrAt · 0) := by
  rw [arrBufs0_eq]
  unfold Dat.arrays
  rw [bigSep_W0, (arr_whole0 0).set_eq_univ, (arr_whole0 1).set_eq_univ, (arr_whole0 2).set_eq_univ, (arr_whole0 3).set_eq_univ,
    (arr_whole0 5).set_eq_univ, share_0, share_1, share_2, share_3, share_4, share_5]
  iintro ⟨H0, H2, Hv0, H1, Hv1⟩
  icases (pointsTo_share (PosShare.mem_left_op_right fullShare)).1 $$ H1 with ⟨H1l, H1r⟩
  isplitl [H0]; · iexact H0
  isplitl [H2]; · iexact H2
  isplitl [Hv0]; · iexact Hv0
  isplitl [H1l]; · iexact H1l
  isplitl [H1r]; · iexact H1r
  iexact Hv1

/-- The reshape allocates nothing. -/
theorem hostOps0_fresh : (hostOps0 : List (HloOp τ sig (Elt F))).Forall fun op => op.fresh = ∅ := rfl

theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

/-- Before the first point the invariant is the scratch at some contents: the scoped rest. -/
theorem hin (c : Dev nD) : iprop(emp ∗ Pipeline.scopedRest spec0 c) ⊢ (dats m 0 c).Φ 0 := by
  rw [scopedRest0_eq, show (dats m 0 c).Φ 0 = iprop(∃ d, owns (c : Thread nD τ) scM fullShare d) from rfl]
  iintro ⟨-, ⟨%f, H⟩⟩
  iexists f
  rw [owns_whole]
  iexact H

/-- After the last point the scratch is held at `scr`; its contents are forgotten. -/
theorem hout (c : Dev nD) : (dats m 0 c).Φ (Fin.last cfg0.N) ⊢ iprop(emp ∗ Pipeline.scopedRest spec0 c) := by
  rw [scopedRest0_eq, show (dats m 0 c).Φ (Fin.last cfg0.N) = owns (c : Thread nD τ) scM fullShare (scr m c) from rfl, owns_whole]
  iintro H
  isplitr; · iempintro
  iexists _; iexact H

/-- The run of the program from the body obligation: in every final state the result array holds the write-backs
    of all 25 points, every argument what it held at launch. -/
theorem run_of_body (hbody : ∀ c, Pipeline.BodyObligationLoose (dats m 0 c) (defs₀ (F := F)) Variants.none () Set.univ) :
    θ_run defs (onTc (τ := τ) (main (F := F))) ⟨m, fun _ => 0, ρ⟩ (fun r => ∀ c : Dev nD,
      r.2.mem ((c.tc : Thread nD τ).loc main_v1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_noSem_shared cfgs (dats m) () cellOf_inj (0 : Fin 1) winFacts₀0 emb₁ defs₀ Variants.none m ρ main
    (hbody := hbody) (hne := block_pos0) (harr := arr_whole0) (hstage := stage_whole0) (howed := fun _ _ => rfl)
    (u₀ := Rounds.initOf (Pipeline.cells cfgs cellOf_inj) (Pipeline.launchToks cfgs cellOf_inj)) (hu₀ := .rfl)
    (V := V m) (hmain := hmain m) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1 5,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (by decide)).trans (V_main_arg3 m c)⟩)

end Cert.Kernel.Hand

end
-- ==== Proof.KI.Data.lean ====
/-
  The graph-convolution kernel `out = max(adj · (x · W) + b, 0)` on a grid of 25 row tiles of 400 rows.
  What each grid point finds and leaves, named once:

  * every input window's staging buffer holds the window's block of its array (`iblk`): the whole of `x`, of `W`
    and of the bias row at every point, and rows `400 t … 400 t + 199` and `400 t + 200 … 400 t + 399` of the
    adjacency for its two windows (one array read through two windows, each holding half of the array's share);
  * the scratch holds the product `x · W` (`scr`) from the first point on: the first point stores it, every
    point reads it and none stores into it again;
  * the output tile is two stacked half tiles, each `max(a · scr + b, 0)` of its adjacency half `a` (`outBlk`).
-/
import proofs.«173262_g47150150975849_cont_8to1_c_844_7_alg».proof.Proof.Gen.KernelIdeal.Launch
import proofs.«173262_g47150150975849_cont_8to1_c_844_7_alg».proof.Proof.Gen.KernelIdeal.Skeleton
import proofs.«173262_g47150150975849_cont_8to1_c_844_7_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

variable (m : (ℓ : Loc nD τ sig) → Buf (Elt F) ℓ)

/-- The TensorCore buffers of core `c` as the region finds them: the launch memory after the one host
    operation before it (the bias reshaped to a row). -/
abbrev V (c : Dev nD) (b : Ref sig .tc) : Buf (Elt F) ((c : Thread nD τ).loc b) :=
  StableHlo.after hostOps0 (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The grid's first point. -/
abbrev t0 : Fin cfg0.N := ⟨0, by decide⟩

/-- The typed blocks: `x`, `W`, the bias row, and the two adjacency half tiles of point `t`. -/
abbrev xB (c : Dev nD) (t : Fin cfg0.N) : Vec F S10000x128 .f32 := iblk m c 0 t
abbrev wB (c : Dev nD) (t : Fin cfg0.N) : Vec F S128x128 .f32 := iblk m c 1 t
abbrev bB (c : Dev nD) (t : Fin cfg0.N) : Vec F S1x128 .f32 := iblk m c 2 t
abbrev aLo (c : Dev nD) (t : Fin cfg0.N) : Vec F S200x10000 .f32 := iblk m c 3 t
abbrev aHi (c : Dev nD) (t : Fin cfg0.N) : Vec F S200x10000 .f32 := iblk m c 4 t

/-- What the scratch holds after the first point: the product `x · W`, as the first point computes it. -/
def scr (c : Dev nD) : Vec F S10000x128 .f32 := k0_pay1 (xB m c t0) (wB m c t0)

/-- The rectangles of the two half-tile stores into the 400-row output tile. -/
abbrev rLo : Rect S400x128 := Rect.unit (s := S400x128) ![0, 0] S200x128.size Facts₀.inb_S400x128_S200x128_0_0
abbrev rHi : Rect S400x128 := Rect.unit (s := S400x128) ![200, 0] S200x128.size Facts₀.inb_S400x128_S200x128_200_0

/-- The output tile a point leaves: rows 0–199 from the first adjacency half, rows 200–399 from the second, each
    `max(a · s + b, 0)` (the later store listed first). -/
def outBlk (a0 a1 : Vec F S200x10000 .f32) (s : Vec F S10000x128 .f32) (b : Vec F S1x128 .f32) : Vec F S400x128 .f32 :=
  View.canon [(⟨rHi, k0_pay3 a1 s b⟩ : View.Piece (Elt F) S400x128 .f32), ⟨rLo, k0_pay2 a0 s b⟩]

/-- The scratch as a memref. -/
abbrev scM : Memref sig .tc .vmem S10000x128 .f32 := Memref.whole cc0_scratch0

/-- The region invariant before position `n`: the scratch at anything before the first point, at `x · W` afterwards. -/
def PhiS (c : Dev nD) : ℕ → sProp 𝕄
  | 0 => iprop(∃ d, owns (c : Thread nD τ) scM fullShare d)
  | _ + 1 => owns (c : Thread nD τ) scM fullShare (scr m c)

/-- The proof data of the pipeline on core `c`. The adjacency is read through windows 3 and 4, each holding half of
    its share; every other input array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (aLo m c t) (aHi m c t) (scr m c) (bB m c t)
  Φ t := PhiS m c t.val
  q w := match w with
    | ⟨3, _⟩ => fullShare.left
    | ⟨4, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlk (aLo m c t) (aHi m c t) (scr m c) (bB m c t) := by dsimp only [dats]

end Cert.KernelIdeal.Hand

end
-- ==== Proof.KI.Run.lean ====
/-
  The kernel body run once on whole staging buffers, in each of its two control cases: at the first grid point it
  also computes `x · W` into the scratch; at every other point it reads the scratch as it found it.
-/
import proofs.«173262_g47150150975849_cont_8to1_c_844_7_alg».proof.Proof.KI.Data
import Idealize.ShloMosaic.Lib.Tactic
import Idealize.ShloMosaic.Lib.Ring
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's branch condition: the grid coordinate is zero. -/
abbrev isFirst (i : grid0.Coords) : Prop :=
  (Scalar.cmpi .ne (Scalar.extui (Scalar.cmpi .eq (BitVec.ofNat 32 (i 0).val) 0#32)) 0#32) = 1#1

/-- The zero offsets, however spelt. -/
theorem hz2 : (![0, 0] : Fin 2 → Nat) = fun _ => 0 := by funext a; fin_cases a <;> rfl

/-- The two half-tile stores cover the 400-row tile. -/
theorem outCover (p3 p2 : S200x128.Idx → Elt F .f32) (y : S400x128.Idx) :
    ∃ pc ∈ [(⟨rHi, p3⟩ : View.Piece (Elt F) S400x128 .f32), ⟨rLo, p2⟩], y ∈ pc.1.set :=
  View.cover_of_tiledL (s := S400x128) _ ![200, 128] (by sl_kernel_rfl) y

set_option maxHeartbeats 1000000 in
/-- Away from the first point: the scratch is only read. -/
theorem run_later (c : Dev nD) (i : grid0.Coords) (hi : ¬ isFirst i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S200x10000 .f32) (harg4 : arg4.IsWhole)
    (arg5 : Memref sig .tc .vmem S200x10000 .f32) (harg5 : arg5.IsWhole) (arg6 : Memref sig .tc .vmem S400x128 .f32) (harg6 : arg6.IsWhole)
    (arg7 : Memref sig .tc .vmem S10000x128 .f32) (harg7 : arg7.IsWhole)
    (x0 : Vec F S10000x128 .f32) (w0 : Vec F S128x128 .f32) (b0 : Vec F S1x128 .f32) (a0 a1 : Vec F S200x10000 .f32)
    (s0 : Vec F S10000x128 .f32) (E : Set ℕ) (K : PUnit → sProp 𝕄) :
    iprop(owns (c : Thread nD τ) arg1 fullShare x0 ∗ owns (c : Thread nD τ) arg2 fullShare w0 ∗ owns (c : Thread nD τ) arg3 fullShare b0
        ∗ owns (c : Thread nD τ) arg4 fullShare a0 ∗ owns (c : Thread nD τ) arg5 fullShare a1
        ∗ (∃ d, owns (c : Thread nD τ) arg6 fullShare d) ∗ owns (c : Thread nD τ) arg7 fullShare s0
        ∗ (iprop(owns (c : Thread nD τ) arg1 fullShare x0 ∗ owns (c : Thread nD τ) arg2 fullShare w0 ∗ owns (c : Thread nD τ) arg3 fullShare b0
            ∗ owns (c : Thread nD τ) arg4 fullShare a0 ∗ owns (c : Thread nD τ) arg5 fullShare a1
            ∗ owns (c : Thread nD τ) arg6 fullShare (outBlk a0 a1 s0 b0) ∗ owns (c : Thread nD τ) arg7 fullShare s0) -∗ K ⟨⟩))
      ⊢ wp frame (wpE (defs₀ (F := F)) Variants.none c none) E
          (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf1; obtain rfl := harg2.eq_unread hf2; obtain rfl := harg3.eq_unread hf3
  obtain rfl := harg4.eq_unread hf4; obtain rfl := harg5.eq_unread hf5; obtain rfl := harg7.eq_unread hf7
  sl_exec (disch := exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (outCover _ _)]
    unfold outBlk
    simp only [View.readAt_eq_ld, harg3.read_unread, harg4.read_unread, harg5.read_unread, harg7.read_unread,
      View.ld_unit_zero (S := S200x10000) hz2, View.ld_unit_zero (S := S10000x128) hz2, View.ld_unit_zero (S := S1x128) hz2]
  iexists _; isplitr; · ipureintro; exact harg7.read_unread _
  iexact H7

set_option maxHeartbeats 1000000 in
/-- At the first point: the scratch, found at anything, is left at `x · W`, which both half tiles then read. -/
theorem run_first (c : Dev nD) (i : grid0.Coords) (hi : isFirst i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S200x10000 .f32) (harg4 : arg4.IsWhole)
    (arg5 : Memref sig .tc .vmem S200x10000 .f32) (harg5 : arg5.IsWhole) (arg6 : Memref sig .tc .vmem S400x128 .f32) (harg6 : arg6.IsWhole)
    (arg7 : Memref sig .tc .vmem S10000x128 .f32) (harg7 : arg7.IsWhole)
    (x0 : Vec F S10000x128 .f32) (w0 : Vec F S128x128 .f32) (b0 : Vec F S1x128 .f32) (a0 a1 : Vec F S200x10000 .f32)
    (E : Set ℕ) (K : PUnit → sProp 𝕄) :
    iprop(owns (c : Thread nD τ) arg1 fullShare x0 ∗ owns (c : Thread nD τ) arg2 fullShare w0 ∗ owns (c : Thread nD τ) arg3 fullShare b0
        ∗ owns (c : Thread nD τ) arg4 fullShare a0 ∗ owns (c : Thread nD τ) arg5 fullShare a1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare w0 ∗ owns (c : Thread nD τ) arg3 fullShare b0
            ∗ owns (c : Thread nD τ) arg4 fullShare a0 ∗ owns (c : Thread nD τ) arg5 fullShare a1
            ∗ owns (c : Thread nD τ) arg6 fullShare (outBlk a0 a1 (k0_pay1 x0 w0) b0) ∗ owns (c : Thread nD τ) arg7 fullShare (k0_pay1 x0 w0)) -∗ K ⟨⟩))
      ⊢ wp frame (wpE (defs₀ (F := F)) Variants.none c none) E
          (cc0__gcn_kernel i arg1 harg1 arg2 harg2 arg3 harg3 arg4 harg4 arg5 harg5 arg6 harg6 arg7 harg7) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3
  obtain rfl := harg4.eq_unread hf4; obtain rfl := harg5.eq_unread hf5
  sl_exec (disch := exact hi)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    rw [View.read_writes_eq_canon _ _ _ (outCover _ _)]
    unfold outBlk
    sl_unfold_words
    simp only [View.readAt_eq_ld, harg1.read_unread, harg2.read_unread, harg3.read_unread, harg4.read_unread, harg5.read_unread,
      View.readCov_unit_zero (S := S10000x128) _ hz2,
      View.ld_unit_zero (S := S200x10000) hz2, View.ld_unit_zero (S := S10000x128) hz2, View.ld_unit_zero (S := S1x128) hz2,
      View.ld_unit_zero (S := S128x128) hz2]
  iexists _; isplitr
  swap; · iexact H7
  ipureintro
  sl_unfold_words
  rw [View.read_writes_eq_canon _ _ _ (fun y => ⟨_, List.mem_singleton_self _, View.mem_set_unit_zero hz2 Facts₀.inb_S10000x128_S10000x128_0_0 y⟩),
    View.canon_unit_zero hz2]
  simp only [View.readAt_eq_ld, harg1.read_unread, harg2.read_unread, View.ld_unit_zero (S := S10000x128) hz2,
    View.ld_unit_zero (S := S128x128) hz2]

end Cert.KernelIdeal.Hand

end
-- ==== Proof.KI.Obligation.lean ====
/-
  The body obligation of the pipeline: at every grid point, from the invariant and the six windows' current staging
  buffers, the kernel body runs to the invariant at the next point and the buffers at what the proof data name.
  Every input window's buffer holds its block whether fetched at the point or not; the output's holds anything
  (it is written back at every point) and is overwritten whole by the two half-tile stores; the scratch holds
  anything before the first point and `x · W` from then on.
-/
import proofs.«173262_g47150150975849_cont_8to1_c_844_7_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The branch is taken at the first grid point only. -/
theorem hfirst : ∀ t : Fin cfg0.N, isFirst (grid0.coords t) ↔ t.val = 0 :=
  (by decide +kernel : ∀ t : Fin grid0.N, isFirst (grid0.coords t) ↔ t.val = 0)

/-- No window is idle at any point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel

/-- Each input window's current staging buffer holds its block at every point, fetched there or not: the body
    leaves the block in place, and an unfetched block's index has not moved. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)

/-- After any point the scratch holds `x · W`. -/
theorem PhiS_pos (c : Dev nD) (n : ℕ) (h : n ≠ 0) : PhiS m c n = owns (c : Thread nD τ) scM fullShare (scr m c) := by
  cases n with
  | zero => exact absurd rfl h
  | succ n => rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 2000000 in
/-- The body at any point, by the case of its branch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).leavesExact 0 t = owns (c : Thread nD τ) (st0_0 t) fullShare ((dats m 0 c).after 0 t) from by
        unfold Dat.leavesExact; rw [live_0 t], after_0,
    show (dats m 0 c).leavesExact 1 t = owns (c : Thread nD τ) (st0_1 t) fullShare ((dats m 0 c).after 1 t) from by
        unfold Dat.leavesExact; rw [live_1 t], after_1,
    show (dats m 0 c).leavesExact 2 t = owns (c : Thread nD τ) (st0_2 t) fullShare ((dats m 0 c).after 2 t) from by
        unfold Dat.leavesExact; rw [live_2 t], after_2,
    show (dats m 0 c).leavesExact 3 t = owns (c : Thread nD τ) (st0_3 t) fullShare ((dats m 0 c).after 3 t) from by
        unfold Dat.leavesExact; rw [live_3 t], after_3,
    show (dats m 0 c).leavesExact 4 t = owns (c : Thread nD τ) (st0_4 t) fullShare ((dats m 0 c).after 4 t) from by
        unfold Dat.leavesExact; rw [live_4 t], after_4,
    show (dats m 0 c).leavesExact 5 t = owns (c : Thread nD τ) (st0_5 t) fullShare ((dats m 0 c).after 5 t) from by
        unfold Dat.leavesExact; rw [live_5 t], after_5]
  rw [show (dats m 0 c).Φ t.succ = owns (c : Thread nD τ) scM fullShare (scr m c) from rfl,
    show (dats m 0 c).Φ t.castSucc = PhiS m c t.val from by dsimp only [dats]; simp only [Fin.coe_castSucc]]
  by_cases hz : t.val = 0
  · obtain rfl : t = t0 := Fin.ext hz
    rw [show PhiS m c (t0 : Fin cfg0.N).val = iprop(∃ d, owns (c : Thread nD τ) scM fullShare d) from rfl]
    unfold scr
    iintro ⟨HS, Ho, ⟨%d0, H0⟩, ⟨%d1, H1⟩, ⟨%d2, H2⟩, ⟨%d3, H3⟩, ⟨%d4, H4⟩, ⟨%d5, H5⟩⟩
    iapply (run_first c (grid0.coords t0) ((hfirst t0).mpr rfl) _ _ _ _ _ _ _ _ _ _ _ _ _ _
      (xB m c t0) (wB m c t0) (bB m c t0) (aLo m c t0) (aHi m c t0) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5
  · rw [PhiS_pos m c _ hz]
    iintro ⟨HS, Ho, ⟨%d0, H0⟩, ⟨%d1, H1⟩, ⟨%d2, H2⟩, ⟨%d3, H3⟩, ⟨%d4, H4⟩, ⟨%d5, H5⟩⟩
    iapply (run_later c (grid0.coords t) (fun h => hz ((hfirst t).mp h)) _ _ _ _ _ _ _ _ _ _ _ _ _ _
      (xB m c t) (wB m c t) (bB m c t) (aLo m c t) (aHi m c t) (scr m c) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch side of the graph-convolution kernel's run: how the program's launch memory becomes the region's
  proof data and how the region's exit is read back against the final state.

  * The one host operation before the region reshapes the bias into a row; it writes no argument, so the region
    finds the four arguments as launched (`V_main_arg0` … `V_main_arg3`).
  * Five distinct buffers stand behind the six windows: the adjacency is read through two windows, and its full
    share is dealt in halves, the left to the first and the right to the second; every other array is held whole
    (`hsplit`).
  * The scratch is the only scoped buffer that is no staging buffer: before the first point it is held at some
    contents (`hin`); after the last point it is held at `scr`, the first point's product of its `x` and `W`
    blocks, and those contents are then forgotten (`hout`).
  * The bias argument bypasses the region and is read back unchanged at the end.
  From the body obligation at every point, `run_of_body` is the run of the whole program in the sense of `θ_run`,
  with this post: the result array holds the write-backs of all 25 points (`arrAt 5 N`) and every argument holds
  what it held at launch.
-/
import proofs.«173262_g47150150975849_cont_8to1_c_844_7_alg».proof.Proof.KI.Data
import Idealize.ShloMosaic.Lib.Pipeline.Launch
import Idealize.ShloMosaic.Lib.Pipeline.Kit
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one host operation writes the bias row only: the arguments are the launch memory. -/
theorem V_main_arg0 (c : Dev nD) : V m c main_arg0 = m ((c : Thread nD τ).loc main_arg0) := by
  dsimp only [V, hostOps0]; after_results
theorem V_main_arg1 (c : Dev nD) : V m c main_arg1 = m ((c : Thread nD τ).loc main_arg1) := by
  dsimp only [V, hostOps0]; after_results
theorem V_main_arg2 (c : Dev nD) : V m c main_arg2 = m ((c : Thread nD τ).loc main_arg2) := by
  dsimp only [V, hostOps0]; after_results
theorem V_main_arg3 (c : Dev nD) : V m c main_arg3 = m ((c : Thread nD τ).loc main_arg3) := by
  dsimp only [V, hostOps0]; after_results

theorem share_0 (c : Dev nD) : (dats m 0 c).share 0 = fullShare := rfl
theorem share_1 (c : Dev nD) : (dats m 0 c).share 1 = fullShare := rfl
theorem share_2 (c : Dev nD) : (dats m 0 c).share 2 = fullShare := rfl
theorem share_3 (c : Dev nD) : (dats m 0 c).share 3 = fullShare.left := rfl
theorem share_4 (c : Dev nD) : (dats m 0 c).share 4 = fullShare.right := rfl
theorem share_5 (c : Dev nD) : (dats m 0 c).share 5 = fullShare := rfl

/-- The five distinct buffers behind the six windows, one by one. -/
theorem arrBufs0_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg2) ↦{fullShare} W main_arg2)
          ∗ (((c : Thread nD τ).loc main_v0) ↦{fullShare} W main_v0) ∗ (((c : Thread nD τ).loc main_arg1) ↦{fullShare} W main_arg1)
          ∗ (((c : Thread nD τ).loc main_v1) ↦{fullShare} W main_v1)) := by
  unfold Pipeline.arrBufs
  exact bigSep_eq_bigSepL_of_eq [main_arg0, main_arg2, main_v0, main_arg1, main_v1] (by decide) (by decide) _

theorem hsplit (c : Dev nD) : (Pipeline.arrBufs spec0 c (V m c) : sProp 𝕄) ⊢ (dats m 0 c).arrays ((dats m 0 c).arrAt · 0) := by
  rw [arrBufs0_eq]
  unfold Dat.arrays
  rw [bigSep_W0, (arr_whole0 0).set_eq_univ, (arr_whole0 1).set_eq_univ, (arr_whole0 2).set_eq_univ, (arr_whole0 3).set_eq_univ,
    (arr_whole0 5).set_eq_univ, share_0, share_1, share_2, share_3, share_4, share_5]
  iintro ⟨H0, H2, Hv0, H1, Hv1⟩
  icases (pointsTo_share (PosShare.mem_left_op_right fullShare)).1 $$ H1 with ⟨H1l, H1r⟩
  isplitl [H0]; · iexact H0
  isplitl [H2]; · iexact H2
  isplitl [Hv0]; · iexact Hv0
  isplitl [H1l]; · iexact H1l
  isplitl [H1r]; · iexact H1r
  iexact Hv1

/-- The reshape allocates nothing. -/
theorem hostOps0_fresh : (hostOps0 : List (HloOp τ sig (Elt F))).Forall fun op => op.fresh = ∅ := rfl

theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

/-- Before the first point the invariant is the scratch at some contents: the scoped rest. -/
theorem hin (c : Dev nD) : iprop(emp ∗ Pipeline.scopedRest spec0 c) ⊢ (dats m 0 c).Φ 0 := by
  rw [scopedRest0_eq, show (dats m 0 c).Φ 0 = iprop(∃ d, owns (c : Thread nD τ) scM fullShare d) from rfl]
  iintro ⟨-, ⟨%f, H⟩⟩
  iexists f
  rw [owns_whole]
  iexact H

/-- After the last point the scratch is held at `scr`; its contents are forgotten. -/
theorem hout (c : Dev nD) : (dats m 0 c).Φ (Fin.last cfg0.N) ⊢ iprop(emp ∗ Pipeline.scopedRest spec0 c) := by
  rw [scopedRest0_eq, show (dats m 0 c).Φ (Fin.last cfg0.N) = owns (c : Thread nD τ) scM fullShare (scr m c) from rfl, owns_whole]
  iintro H
  isplitr; · iempintro
  iexists _; iexact H

/-- The run of the program from the body obligation: in every final state the result array holds the write-backs
    of all 25 points, every argument what it held at launch. -/
theorem run_of_body (hbody : ∀ c, Pipeline.BodyObligationLoose (dats m 0 c) (defs₀ (F := F)) Variants.none () Set.univ) :
    θ_run defs (onTc (τ := τ) (main (F := F))) ⟨m, fun _ => 0, ρ⟩ (fun r => ∀ c : Dev nD,
      r.2.mem ((c.tc : Thread nD τ).loc main_v1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_noSem_shared cfgs (dats m) () cellOf_inj (0 : Fin 1) winFacts₀0 emb₁ defs₀ Variants.none m ρ main
    (hbody := hbody) (hne := block_pos0) (harr := arr_whole0) (hstage := stage_whole0) (howed := fun _ _ => rfl)
    (u₀ := Rounds.initOf (Pipeline.cells cfgs cellOf_inj) (Pipeline.launchToks cfgs cellOf_inj)) (hu₀ := .rfl)
    (V := V m) (hmain := hmain m) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1 5,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (by decide)).trans (V_main_arg3 m c)⟩)

end Cert.KernelIdeal.Hand

end
-- ==== Proof.KI.Payload.lean ====
/-
  The kernel's three stored values read at one index, over the extended reals.

  * The first grid point stores `x · W`: at row `p`, column `q` it is `Σ_l x(p, l) · W(l, q)`.
  * Every grid point stores two half tiles `max(a · s + b, 0)`, where `a` is a block of 200 rows of the adjacency,
    `s` the stored product and `b` the bias as one row: at row `r`, column `q` each is
    `max (Σ_k a(r, k) · s(k, q) + b(0, q)) 0`.

  A matrix product into the zero accumulator is the sum over the contraction index of the operands' products; that
  index has one axis, so the sum is re-indexed by the axis' coordinate, and the operand indices are read off axis by axis.
-/
import proofs.«173262_g47150150975849_cont_8to1_c_844_7_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The operand indices of the two products, axis by axis -/

theorem lhs_xw_0 (i : S10000x128.Idx) (k : dot_S10000x128_S128x128_S10000x128_1_0_0_1_n_n.contr.Idx) :
    (dot_S10000x128_S128x128_S10000x128_1_0_0_1_n_n.lhsIdx i k 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_xw_1 (i : S10000x128.Idx) (k : dot_S10000x128_S128x128_S10000x128_1_0_0_1_n_n.contr.Idx) :
    (dot_S10000x128_S128x128_S10000x128_1_0_0_1_n_n.lhsIdx i k 1).val = (k ⟨0, by decide⟩).val :=
  dot_S10000x128_S128x128_S10000x128_1_0_0_1_n_n.lhsIdx_val_of_single rfl i k
theorem rhs_xw_0 (i : S10000x128.Idx) (k : dot_S10000x128_S128x128_S10000x128_1_0_0_1_n_n.contr.Idx) :
    (dot_S10000x128_S128x128_S10000x128_1_0_0_1_n_n.rhsIdx i k 0).val = (k ⟨0, by decide⟩).val :=
  dot_S10000x128_S128x128_S10000x128_1_0_0_1_n_n.rhsIdx_val_of_single rfl i k
theorem rhs_xw_1 (i : S10000x128.Idx) (k : dot_S10000x128_S128x128_S10000x128_1_0_0_1_n_n.contr.Idx) :
    (dot_S10000x128_S128x128_S10000x128_1_0_0_1_n_n.rhsIdx i k 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem lhs_as_0 (i : S200x128.Idx) (k : dot_S200x10000_S10000x128_S200x128_1_0_0_1_n_n.contr.Idx) :
    (dot_S200x10000_S10000x128_S200x128_1_0_0_1_n_n.lhsIdx i k 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs_as_1 (i : S200x128.Idx) (k : dot_S200x10000_S10000x128_S200x128_1_0_0_1_n_n.contr.Idx) :
    (dot_S200x10000_S10000x128_S200x128_1_0_0_1_n_n.lhsIdx i k 1).val = (k ⟨0, by decide⟩).val :=
  dot_S200x10000_S10000x128_S200x128_1_0_0_1_n_n.lhsIdx_val_of_single rfl i k
theorem rhs_as_0 (i : S200x128.Idx) (k : dot_S200x10000_S10000x128_S200x128_1_0_0_1_n_n.contr.Idx) :
    (dot_S200x10000_S10000x128_S200x128_1_0_0_1_n_n.rhsIdx i k 0).val = (k ⟨0, by decide⟩).val :=
  dot_S200x10000_S10000x128_S200x128_1_0_0_1_n_n.rhsIdx_val_of_single rfl i k
theorem rhs_as_1 (i : S200x128.Idx) (k : dot_S200x10000_S10000x128_S200x128_1_0_0_1_n_n.contr.Idx) :
    (dot_S200x10000_S10000x128_S200x128_1_0_0_1_n_n.rhsIdx i k 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-! ## The two products at an index -/

/-- `x · W` into the zero accumulator, at row `p`, column `q`: the sum over the 128 input features. -/
theorem matmul_xw_apply (u : FVec Ideal S10000x128 .f32) (v : FVec Ideal S128x128 .f32) (p : Fin 10000) (q : Fin 128) :
    matmul dot_S10000x128_S128x128_S10000x128_1_0_0_1_n_n none u v (constant (F := Ideal) S10000x128 .f32 0x00000000#32) (ix2 p q)
      = ∑ k : Fin 128, u (ix2 p k) * v (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_xw_0 _ _
    | ⟨1, _⟩ => exact (lhs_xw_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_xw_0 _ _).trans hk
    | ⟨1, _⟩ => exact rhs_xw_1 _ _)
  rw [el, er]

/-- A block of 200 adjacency rows times the support into the zero accumulator, at row `r`, column `q`: the sum over the 10000 nodes. -/
theorem matmul_as_apply (u : FVec Ideal S200x10000 .f32) (v : FVec Ideal S10000x128 .f32) (p : Fin 200) (q : Fin 128) :
    matmul dot_S200x10000_S10000x128_S200x128_1_0_0_1_n_n none u v (constant (F := Ideal) S200x128 .f32 0x00000000#32) (ix2 p q)
      = ∑ k : Fin 10000, u (ix2 p k) * v (ix2 k q) := by
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q) ((contrEquiv1 dot_S200x10000_S10000x128_S200x128_1_0_0_1_n_n 10000 rfl rfl).symm k) = ix2 p k := funext fun a => Fin.ext (by
    match a with
    | ⟨0, _⟩ => exact lhs_as_0 _ _
    | ⟨1, _⟩ => exact (lhs_as_1 _ _).trans hk)
  have er : dot_S200x10000_S10000x128_S200x128_1_0_0_1_n_n.rhsIdx (ix2 p q) ((contrEquiv1 dot_S200x10000_S10000x128_S200x128_1_0_0_1_n_n 10000 rfl rfl).symm k) = ix2 k q := funext fun a => Fin.ext (by
    match a with
    | ⟨0, _⟩ => exact (rhs_as_0 _ _).trans hk
    | ⟨1, _⟩ => exact rhs_as_1 _ _)
  rw [el, er]

/-! ## The bias row spread over 200 rows -/

/-- The bias row broadcast to 200 rows reads, at row `r`, column `q`, the row's entry at column `q`. -/
theorem bias_row_apply (b : S1x128.Idx → EReal) (h : S1x128.Broadcasts S200x128) (r : Fin 200) (q : Fin 128) :
    broadcastTo S200x128 b h (ix2 r q) = b (ix2 (0 : Fin 1) q) :=
  broadcastTo_apply b h (ix2 r q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-! ## The three stored values -/

/-- The stored product at row `p`, column `q`. -/
theorem pay1_apply (x : Vec Ideal S10000x128 .f32) (w : Vec Ideal S128x128 .f32) (p : Fin 10000) (q : Fin 128) :
    k0_pay1 (F := Ideal) x w (ix2 p q) = ∑ l : Fin 128, x (ix2 p l) * w (ix2 l q) := by
  unfold k0_pay1
  rw [shapeCast_self, matmul_xw_apply]

/-- The first half tile's payload at row `r`, column `q`: the adjacency row against the column of the
    support, plus the bias at `q`, cut off below at zero. -/
theorem pay2_apply (a : Vec Ideal S200x10000 .f32) (s : Vec Ideal S10000x128 .f32) (b : Vec Ideal S1x128 .f32) (r : Fin 200) (q : Fin 128) :
    k0_pay2 (F := Ideal) a s b (ix2 r q) = max ((∑ k : Fin 10000, a (ix2 r k) * s (ix2 k q)) + b (ix2 (0 : Fin 1) q)) 0 := by
  unfold k0_pay2
  rw [maximumf_apply, addf_apply, broadcast_apply, matmul_as_apply, shapeCast_self, bias_row_apply]
  show max _ (Ideal.ofBits .f32 0x00000000#32) = _
  rw [Ideal.ofBits_zero_f32]

/-- The second half tile's payload at row `r`, column `q`: the adjacency row against the column of the
    support, plus the bias at `q`, cut off below at zero. -/
theorem pay3_apply (a : Vec Ideal S200x10000 .f32) (s : Vec Ideal S10000x128 .f32) (b : Vec Ideal S1x128 .f32) (r : Fin 200) (q : Fin 128) :
    k0_pay3 (F := Ideal) a s b (ix2 r q) = max ((∑ k : Fin 10000, a (ix2 r k) * s (ix2 k q)) + b (ix2 (0 : Fin 1) q)) 0 := by
  unfold k0_pay3
  rw [maximumf_apply, addf_apply, broadcast_apply, matmul_as_apply, shapeCast_self, bias_row_apply]
  show max _ (Ideal.ofBits .f32 0x00000000#32) = _
  rw [Ideal.ofBits_zero_f32]

end Cert.KernelIdeal.Hand

end
-- ==== Proof.Spec.lean ====
/-
  The specification: one graph-convolution layer over the extended reals,
  `G x adj W b (p, q) = max (Σ_k adj(p, k) · (Σ_l x(k, l) · W(l, q)) + b(q)) 0`,
  for 10000 nodes and 128 features in and out. Both programs are shown to compute this function of their
  argument arrays, index by index; no law beyond the definitions of the sums joins the two sides.
-/
import Idealize.ShloMosaic.PureOps.Ideal
import Idealize.ShloMosaic.Lib.ValueIdx

noncomputable section

open scoped BigOperators

namespace Cert.Spec

open Idealize.ShloMosaic Idealize.ShloMosaic.ValueIdx

/-- The shapes of the arguments and the result. -/
abbrev SX : Shape := ⟨2, ![10000, 128]⟩
abbrev SAdj : Shape := ⟨2, ![10000, 10000]⟩
abbrev SW : Shape := ⟨2, ![128, 128]⟩
abbrev SB : Shape := ⟨1, ![128]⟩

/-- The support `x · W` at row `k`, column `q`. -/
def support (x : SX.Idx → EReal) (W : SW.Idx → EReal) (k : Fin 10000) (q : Fin 128) : EReal :=
  ∑ l : Fin 128, x (ix2 k l) * W (ix2 l q)

/-- The layer's result at row `p`, column `q`. -/
def Gat (x : SX.Idx → EReal) (adj : SAdj.Idx → EReal) (W : SW.Idx → EReal) (b : SB.Idx → EReal) (p : Fin 10000) (q : Fin 128) : EReal :=
  max ((∑ k : Fin 10000, adj (ix2 p k) * support x W k q) + b (ix1 q)) 0

/-- The layer's result as one array. -/
def G (x : SX.Idx → EReal) (adj : SAdj.Idx → EReal) (W : SW.Idx → EReal) (b : SB.Idx → EReal) : SX.Idx → EReal :=
  fun i => Gat x adj W b (i 0) (i 1)

theorem G_ix2 (x : SX.Idx → EReal) (adj : SAdj.Idx → EReal) (W : SW.Idx → EReal) (b : SB.Idx → EReal) (p : Fin 10000) (q : Fin 128) :
    G x adj W b (ix2 p q) = Gat x adj W b p q := rfl

end Cert.Spec

end
-- ==== Proof.KI.Blocks.lean ====
/-
  The graph-convolution kernel over the extended reals: what each grid point's input blocks hold, coordinate by
  coordinate, in terms of the launch memory's argument arrays.

  * Before the region the bias is reshaped to one row; nothing else is written, so `x`, the adjacency and `W` are the
    launch memory's, and the row at column `q` is the bias at `q`.
  * The windows of `x`, `W` and the bias row hold their whole arrays at every point (block index (0, 0) of full size).
  * The two adjacency windows at point `t` hold rows `400 t + r` and `400 t + 200 + r` (`r < 200`): a block's coordinate
    in its array is block index × block size + the coordinate inside the block.
  * Hence the scratch holds the support `x · W` of the launch memory's `x` and `W`.
-/
import proofs.«173262_g47150150975849_cont_8to1_c_844_7_alg».proof.Proof.KI.Data
import proofs.«173262_g47150150975849_cont_8to1_c_844_7_alg».proof.Proof.KI.Payload
import proofs.«173262_g47150150975849_cont_8to1_c_844_7_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-! ## The arrays as the region finds them

The one host operation before the region writes only the bias row, so the three argument arrays the windows read
are the launch memory's, and the bias row at column `q` is the bias at `q`. -/

theorem V_arg0 (c : Dev nD) : V m c main_arg0 = m ((c.tc : Thread nD τ).loc main_arg0) := by
  dsimp only [V, hostOps0]; after_results

theorem V_arg1 (c : Dev nD) : V m c main_arg1 = m ((c.tc : Thread nD τ).loc main_arg1) := by
  dsimp only [V, hostOps0]; after_results

theorem V_arg2 (c : Dev nD) : V m c main_arg2 = m ((c.tc : Thread nD τ).loc main_arg2) := by
  dsimp only [V, hostOps0]; after_results

theorem V_v0 (c : Dev nD) : (V m c main_v0 : S1x128.Idx → EReal) = shapeCast S1x128 (m ((c.tc : Thread nD τ).loc main_arg3) : S128.Idx → EReal) Facts₀.shapeCasts_S128_S1x128 := by
  dsimp only [V, hostOps0]; after_results; rfl

/-- The bias row at column `q` is the bias at `q`: both sit at row-major position `q`. -/
theorem V_v0_apply (c : Dev nD) (q : Fin 128) :
    (V m c main_v0 : S1x128.Idx → EReal) (ix2 (0 : Fin 1) q) = (m ((c.tc : Thread nD τ).loc main_arg3) : Cert.Spec.SB.Idx → EReal) (ix1 q) := by
  rw [V_v0]
  refine shapeCast_apply _ _ (ix2 (0 : Fin 1) q) (ix1 q) ?_
  rw [Shape.rowMajor_val_one, Shape.rowMajor_val_two]
  show q.val = 0 * 128 + q.val
  omega

/-! ## The grid: 25 points, and each window's block index at a point -/

theorem t_lt (t : Fin cfg0.N) : t.val < 25 := Nat.lt_of_lt_of_eq t.isLt N_0

/-- The three whole-array windows stay at block (0, 0); the two adjacency windows are at row blocks `2t` and
    `2t + 1` of 200 rows; the output window is at row block `t` of 400 rows. -/
theorem idx_facts : ∀ t : Fin cfg0.N,
    win0_0.index t (0 : Fin 2) = 0 ∧ win0_0.index t (1 : Fin 2) = 0
  ∧ win0_1.index t (0 : Fin 2) = 0 ∧ win0_1.index t (1 : Fin 2) = 0
  ∧ win0_2.index t (0 : Fin 2) = 0 ∧ win0_2.index t (1 : Fin 2) = 0
  ∧ win0_3.index t (0 : Fin 2) = 2 * t.val ∧ win0_3.index t (1 : Fin 2) = 0
  ∧ win0_4.index t (0 : Fin 2) = 2 * t.val + 1 ∧ win0_4.index t (1 : Fin 2) = 0
  ∧ win0_5.index t (0 : Fin 2) = t.val ∧ win0_5.index t (1 : Fin 2) = 0 :=
  (by decide +kernel : ∀ t : Fin grid0.N, _)

theorem row_lo (t : Fin cfg0.N) (r : Fin 200) : 400 * t.val + r.val < 10000 := by
  have := t_lt t; have := r.isLt; omega
theorem row_hi (t : Fin cfg0.N) (r : Fin 200) : 400 * t.val + 200 + r.val < 10000 := by
  have := t_lt t; have := r.isLt; omega
theorem row_in (t : Fin cfg0.N) (p : Fin 400) : 400 * t.val + p.val < 10000 := by
  have := t_lt t; have := p.isLt; omega

/-! ## The input blocks at coordinates -/

/-- The first window's block is the whole of `x`. -/
theorem xB_apply (c : Dev nD) (t : Fin cfg0.N) (p : Fin 10000) (l : Fin 128) :
    xB m c t (ix2 p l) = (m ((c.tc : Thread nD τ).loc main_arg0) : Cert.Spec.SX.Idx → EReal) (ix2 p l) := by
  obtain ⟨e0, e1, -⟩ := idx_facts t
  show ((cfg0.win 0).blk t).view.read (Elt Ideal) (V m c main_arg0) (ix2 p l) = _
  rw [View.read_apply]
  show V m c main_arg0 (((cfg0.win 0).blk t).view.emb (ix2 p l)) = _
  rw [V_arg0]
  congr 1
  funext a
  apply Fin.ext
  match a with
  | ⟨0, _⟩ => show win0_0.index t (0 : Fin 2) * 10000 + 1 * p.val = p.val; omega
  | ⟨1, _⟩ => show win0_0.index t (1 : Fin 2) * 128 + 1 * l.val = l.val; omega

/-- The second window's block is the whole of `W`. -/
theorem wB_apply (c : Dev nD) (t : Fin cfg0.N) (l : Fin 128) (q : Fin 128) :
    wB m c t (ix2 l q) = (m ((c.tc : Thread nD τ).loc main_arg2) : Cert.Spec.SW.Idx → EReal) (ix2 l q) := by
  obtain ⟨-, -, e0, e1, -⟩ := idx_facts t
  show ((cfg0.win 1).blk t).view.read (Elt Ideal) (V m c main_arg2) (ix2 l q) = _
  rw [View.read_apply]
  show V m c main_arg2 (((cfg0.win 1).blk t).view.emb (ix2 l q)) = _
  rw [V_arg2]
  congr 1
  funext a
  apply Fin.ext
  match a with
  | ⟨0, _⟩ => show win0_1.index t (0 : Fin 2) * 128 + 1 * l.val = l.val; omega
  | ⟨1, _⟩ => show win0_1.index t (1 : Fin 2) * 128 + 1 * q.val = q.val; omega

/-- The third window's block is the whole bias row: at column `q` the bias at `q`. -/
theorem bB_apply (c : Dev nD) (t : Fin cfg0.N) (q : Fin 128) :
    bB m c t (ix2 (0 : Fin 1) q) = (m ((c.tc : Thread nD τ).loc main_arg3) : Cert.Spec.SB.Idx → EReal) (ix1 q) := by
  obtain ⟨-, -, -, -, e0, e1, -⟩ := idx_facts t
  show ((cfg0.win 2).blk t).view.read (Elt Ideal) (V m c main_v0) (ix2 (0 : Fin 1) q) = _
  rw [View.read_apply]
  show (V m c main_v0 : S1x128.Idx → EReal) (((cfg0.win 2).blk t).view.emb (ix2 (0 : Fin 1) q)) = _
  refine Eq.trans ?_ (V_v0_apply m c q)
  congr 1
  funext a
  apply Fin.ext
  match a with
  | ⟨0, _⟩ => show win0_2.index t (0 : Fin 2) * 1 + 1 * 0 = 0; omega
  | ⟨1, _⟩ => show win0_2.index t (1 : Fin 2) * 128 + 1 * q.val = q.val; omega

/-- The fourth window's block at point `t` is rows `400 t … 400 t + 199` of the adjacency. -/
theorem aLo_apply (c : Dev nD) (t : Fin cfg0.N) (r : Fin 200) (k : Fin 10000) :
    aLo m c t (ix2 r k) = (m ((c.tc : Thread nD τ).loc main_arg1) : Cert.Spec.SAdj.Idx → EReal) (ix2 ⟨400 * t.val + r.val, row_lo t r⟩ k) := by
  obtain ⟨-, -, -, -, -, -, e0, e1, -⟩ := idx_facts t
  show ((cfg0.win 3).blk t).view.read (Elt Ideal) (V m c main_arg1) (ix2 r k) = _
  rw [View.read_apply]
  show V m c main_arg1 (((cfg0.win 3).blk t).view.emb (ix2 r k)) = _
  rw [V_arg1]
  congr 1
  funext a
  apply Fin.ext
  match a with
  | ⟨0, _⟩ => show win0_3.index t (0 : Fin 2) * 200 + 1 * r.val = 400 * t.val + r.val; omega
  | ⟨1, _⟩ => show win0_3.index t (1 : Fin 2) * 10000 + 1 * k.val = k.val; omega

/-- The fifth window's block at point `t` is rows `400 t + 200 … 400 t + 399` of the adjacency. -/
theorem aHi_apply (c : Dev nD) (t : Fin cfg0.N) (r : Fin 200) (k : Fin 10000) :
    aHi m c t (ix2 r k) = (m ((c.tc : Thread nD τ).loc main_arg1) : Cert.Spec.SAdj.Idx → EReal) (ix2 ⟨400 * t.val + 200 + r.val, row_hi t r⟩ k) := by
  obtain ⟨-, -, -, -, -, -, -, -, e0, e1, -⟩ := idx_facts t
  show ((cfg0.win 4).blk t).view.read (Elt Ideal) (V m c main_arg1) (ix2 r k) = _
  rw [View.read_apply]
  show V m c main_arg1 (((cfg0.win 4).blk t).view.emb (ix2 r k)) = _
  rw [V_arg1]
  congr 1
  funext a
  apply Fin.ext
  match a with
  | ⟨0, _⟩ => show win0_4.index t (0 : Fin 2) * 200 + 1 * r.val = 400 * t.val + 200 + r.val; omega
  | ⟨1, _⟩ => show win0_4.index t (1 : Fin 2) * 10000 + 1 * k.val = k.val; omega

/-- The scratch holds the support `x · W` of the launch memory's `x` and `W`. -/
theorem scr_apply (c : Dev nD) (k : Fin 10000) (q : Fin 128) :
    scr m c (ix2 k q) = Cert.Spec.support (m ((c.tc : Thread nD τ).loc main_arg0)) (m ((c.tc : Thread nD τ).loc main_arg2)) k q := by
  unfold scr
  refine (pay1_apply _ _ k q).trans ?_
  unfold Cert.Spec.support
  refine Finset.sum_congr rfl fun l _ => ?_
  rw [xB_apply, wB_apply]

end Cert.KernelIdeal.Hand

end
-- ==== Proof.KI.Final.lean ====
/-
  The graph-convolution kernel over the extended reals: after the run the result array is the layer's result
  `max(adj · (x · W) + b, 0)` of the launch memory's argument arrays.

  * The output tile a grid point leaves is two stacked half tiles: a row below 200 is the first half's, a row from
    200 on the second half's; each is `max(a · s + b, 0)` of its 200 adjacency rows `a`, the support `s = x · W` and the
    bias row. With the input blocks read at coordinates, row `p` of point `t`'s tile is row `400 t + p` of the layer's result.
  * The output window is written back at every point and is not cut, so what point `t` writes back is block `t` of
    that one whole-array function.
  * The 25 tiles of 400 rows cover the 10000 rows (row `r` is in the tile of point `r / 400`), so the array ends
    holding the layer's result.
-/
import proofs.«173262_g47150150975849_cont_8to1_c_844_7_alg».proof.Proof.KI.Blocks
import proofs.«173262_g47150150975849_cont_8to1_c_844_7_alg».proof.Proof.KI.Data
import proofs.«173262_g47150150975849_cont_8to1_c_844_7_alg».proof.Proof.KI.Payload
import proofs.«173262_g47150150975849_cont_8to1_c_844_7_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-! ## The output tile at an index

The tile is two stacked half tiles; a row below 200 lies in the first half only, a row from 200 on lies in the
second, which is listed first. -/

theorem outBlk_lo (a0 a1 : Vec Ideal S200x10000 .f32) (s : Vec Ideal S10000x128 .f32) (b : Vec Ideal S1x128 .f32)
    (r : Fin 200) (q : Fin 128) :
    outBlk a0 a1 s b (ix2 (⟨r.val, by have := r.isLt; omega⟩ : Fin 400) q) = k0_pay2 a0 s b (ix2 r q) := by
  unfold outBlk
  have hn : (ix2 (⟨r.val, by have := r.isLt; omega⟩ : Fin 400) q : S400x128.Idx) ∉ (rHi : Rect S400x128).set := by
    rw [Rect.mem_set_unit]
    intro h
    have h0 : 200 ≤ r.val := (h 0).1
    have := r.isLt
    omega
  rw [View.canon_cons_of_not_mem (Val := Elt Ideal) (e := .f32) ⟨rHi, k0_pay3 a1 s b⟩ [⟨rLo, k0_pay2 a0 s b⟩] hn]
  have e : (ix2 (⟨r.val, by have := r.isLt; omega⟩ : Fin 400) q : S400x128.Idx) = (rLo : Rect S400x128).emb (ix2 r q) := by
    funext a
    apply Fin.ext
    match a with
    | ⟨0, _⟩ => show r.val = 0 + 1 * r.val; omega
    | ⟨1, _⟩ => show q.val = 0 + 1 * q.val; omega
  rw [e]
  exact View.canon_cons_emb (Val := Elt Ideal) (e := .f32) (rLo : Rect S400x128) (k0_pay2 a0 s b) [] (ix2 r q)

theorem outBlk_hi (a0 a1 : Vec Ideal S200x10000 .f32) (s : Vec Ideal S10000x128 .f32) (b : Vec Ideal S1x128 .f32)
    (r : Fin 200) (q : Fin 128) :
    outBlk a0 a1 s b (ix2 (⟨200 + r.val, by have := r.isLt; omega⟩ : Fin 400) q) = k0_pay3 a1 s b (ix2 r q) := by
  unfold outBlk
  have e : (ix2 (⟨200 + r.val, by have := r.isLt; omega⟩ : Fin 400) q : S400x128.Idx) = (rHi : Rect S400x128).emb (ix2 r q) := by
    funext a
    apply Fin.ext
    match a with
    | ⟨0, _⟩ => show 200 + r.val = 200 + 1 * r.val; omega
    | ⟨1, _⟩ => show q.val = 0 + 1 * q.val; omega
  rw [e]
  exact View.canon_cons_emb (Val := Elt Ideal) (e := .f32) (rHi : Rect S400x128) (k0_pay3 a1 s b) [⟨rLo, k0_pay2 a0 s b⟩] (ix2 r q)

/-- THE TILE A POINT LEAVES is the layer's result restricted to rows `400 t … 400 t + 399`. -/
theorem tile_apply (c : Dev nD) (t : Fin cfg0.N) (p : Fin 400) (q : Fin 128) :
    outBlk (aLo m c t) (aHi m c t) (scr m c) (bB m c t) (ix2 p q)
      = Cert.Spec.Gat (m ((c.tc : Thread nD τ).loc main_arg0)) (m ((c.tc : Thread nD τ).loc main_arg1))
          (m ((c.tc : Thread nD τ).loc main_arg2)) (m ((c.tc : Thread nD τ).loc main_arg3)) ⟨400 * t.val + p.val, row_in t p⟩ q := by
  unfold Cert.Spec.Gat
  by_cases hp : p.val < 200
  · refine (outBlk_lo (aLo m c t) (aHi m c t) (scr m c) (bB m c t) ⟨p.val, hp⟩ q).trans ?_
    refine (pay2_apply _ _ _ ⟨p.val, hp⟩ q).trans ?_
    rw [bB_apply]
    congr 2
    refine Finset.sum_congr rfl fun k _ => ?_
    rw [aLo_apply, scr_apply]
  · have hp' : p.val - 200 < 200 := by have := p.isLt; omega
    have ep : p = ⟨200 + (⟨p.val - 200, hp'⟩ : Fin 200).val, by show 200 + (p.val - 200) < 400; omega⟩ :=
      Fin.ext (by show p.val = 200 + (p.val - 200); omega)
    have eo : outBlk (aLo m c t) (aHi m c t) (scr m c) (bB m c t) (ix2 p q)
        = outBlk (aLo m c t) (aHi m c t) (scr m c) (bB m c t) (ix2 (⟨200 + (⟨p.val - 200, hp'⟩ : Fin 200).val, by show 200 + (p.val - 200) < 400; omega⟩ : Fin 400) q) :=
      congrArg (fun z : Fin 400 => outBlk (aLo m c t) (aHi m c t) (scr m c) (bB m c t) (ix2 z q)) ep
    refine eo.trans ?_
    refine (outBlk_hi (aLo m c t) (aHi m c t) (scr m c) (bB m c t) ⟨p.val - 200, hp'⟩ q).trans ?_
    refine (pay3_apply _ _ _ ⟨p.val - 200, hp'⟩ q).trans ?_
    rw [bB_apply]
    congr 2
    refine Finset.sum_congr rfl fun k _ => ?_
    rw [aHi_apply, scr_apply]
    congr 2
    funext a
    apply Fin.ext
    match a with
    | ⟨0, _⟩ => show 400 * t.val + 200 + (p.val - 200) = 400 * t.val + p.val; omega
    | ⟨1, _⟩ => rfl

/-! ## What a point writes back, the cover, and the array after the run -/

/-- WHAT POINT `t` WRITES BACK is block `t` of the layer's result on the launch memory's argument arrays: the
    output window is uncut, so the write-back is the whole tile, and row `p` of the tile is row `400 t + p` of the array. -/
theorem flushed_eq (c : Dev nD) (t : Fin cfg0.N) :
    (dats (F := Ideal) m 0 c).flushed 5 t = ((cfg0.win 5).blk t).view.read (Elt Ideal)
      (Cert.Spec.G (m ((c.tc : Thread nD τ).loc main_arg0)) (m ((c.tc : Thread nD τ).loc main_arg1))
        (m ((c.tc : Thread nD τ).loc main_arg2)) (m ((c.tc : Thread nD τ).loc main_arg3))) := by
  show (cfg0.win 5).cut (grid0.coords t) ((dats m 0 c).after 5 t) = _
  rw [after_5]
  funext y
  obtain ⟨p, q, rfl⟩ : ∃ (p : Fin 400) (q : Fin 128), y = ix2 p q := ⟨y 0, y 1, eq_ix2 y⟩
  rw [View.read_apply]
  show outBlk (aLo m c t) (aHi m c t) (scr m c) (bB m c t) (ix2 p q)
    = Cert.Spec.G (m ((c.tc : Thread nD τ).loc main_arg0)) (m ((c.tc : Thread nD τ).loc main_arg1))
        (m ((c.tc : Thread nD τ).loc main_arg2)) (m ((c.tc : Thread nD τ).loc main_arg3)) (((cfg0.win 5).blk t).view.emb (ix2 p q))
  obtain ⟨-, -, -, -, -, -, -, -, -, -, e0, e1⟩ := idx_facts t
  have e : ((cfg0.win 5).blk t).view.emb (ix2 p q) = (ix2 (⟨400 * t.val + p.val, row_in t p⟩ : Fin 10000) q : S10000x128.Idx) := by
    funext a
    apply Fin.ext
    match a with
    | ⟨0, _⟩ => show win0_5.index t (0 : Fin 2) * 400 + 1 * p.val = 400 * t.val + p.val; omega
    | ⟨1, _⟩ => show win0_5.index t (1 : Fin 2) * 128 + 1 * q.val = q.val; omega
  rw [e, Cert.Spec.G_ix2]
  exact tile_apply m c t p q

/-- An index of the array is in point `t`'s block iff each coordinate is in the block's range on its axis. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v1).slice (win0_5.rect t)).set ↔ _
  rw [View.set_slice_whole, Rect.mem_set_unit]
  exact Iff.rfl

/-- Row `r` of the array is in the block of point `r / 400`: the 25 tiles of 400 rows cover the 10000 rows. -/
theorem cover (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have ht : (i 0).val / 400 < cfg0.N := by rw [show cfg0.N = 25 from N_0]; omega
  obtain ⟨-, -, -, -, -, -, -, -, -, -, e0, e1⟩ := idx_facts ⟨(i 0).val / 400, ht⟩
  have e0' : win0_5.index ⟨(i 0).val / 400, ht⟩ (0 : Fin 2) = (i 0).val / 400 := e0
  refine ⟨⟨(i 0).val / 400, ht⟩, flush0_5 _, ?_⟩
  rw [mem_blk]
  intro a
  match a with
  | ⟨0, _⟩ =>
    show win0_5.index ⟨(i 0).val / 400, ht⟩ (0 : Fin 2) * 400 ≤ (i 0).val ∧ (i 0).val < win0_5.index ⟨(i 0).val / 400, ht⟩ (0 : Fin 2) * 400 + 400
    omega
  | ⟨1, _⟩ =>
    show win0_5.index ⟨(i 0).val / 400, ht⟩ (1 : Fin 2) * 128 ≤ (i 1).val ∧ (i 1).val < win0_5.index ⟨(i 0).val / 400, ht⟩ (1 : Fin 2) * 128 + 128
    omega

/-- THE ARRAY AFTER THE RUN is the layer's result on the launch memory's argument arrays. -/
theorem final (c : Dev nD) :
    (dats (F := Ideal) m 0 c).arrAt 5 cfg0.N
      = Cert.Spec.G (m ((c.tc : Thread nD τ).loc main_arg0)) (m ((c.tc : Thread nD τ).loc main_arg1))
          (m ((c.tc : Thread nD τ).loc main_arg2)) (m ((c.tc : Thread nD τ).loc main_arg3)) :=
  (dats m 0 c).arrAt_eq_of_cover 5
    (Cert.Spec.G (m ((c.tc : Thread nD τ).loc main_arg0)) (m ((c.tc : Thread nD τ).loc main_arg1))
      (m ((c.tc : Thread nD τ).loc main_arg2)) (m ((c.tc : Thread nD τ).loc main_arg3)))
    (fun t _ => flushed_eq m c t) cover

end Cert.KernelIdeal.Hand

end
-- ==== Proof.RefValue.lean ====
/-
  The reference program computes the specification. Read at the index (p, q), its result is
  max ((Σ_k adj(p, k) · (Σ_l x(k, l) · W(l, q))) + b(q)) 0: each of the two products is the finite sum over its
  contracted axis, the bias row is broadcast along the nodes so that only its column coordinate is read, and the
  rectifier is the maximum with the constant zero. This is `G x adj W b` at (p, q), term for term; no law of
  the extended reals beyond the definitions is used.
-/
import proofs.«173262_g47150150975849_cont_8to1_c_844_7_alg».proof.Proof.Gen.ReferenceIdeal.Run
import proofs.«173262_g47150150975849_cont_8to1_c_844_7_alg».proof.Proof.Gen.ReferenceIdeal.Read
import proofs.«173262_g47150150975849_cont_8to1_c_844_7_alg».proof.Proof.Spec

noncomputable section

open scoped BigOperators

namespace Cert.RefValue

open Cert.ReferenceIdeal Cert.ReferenceIdeal.Gen Idealize.ShloMosaic Idealize.ShloMosaic.TcCoe Idealize.SL.Sem
  Idealize.ShloMosaic.StableHlo Idealize.ShloMosaic.ValueIdx

/-! ## The operand indices of the two products and of the bias, by coordinates -/

/-- First product, left operand: row `p` of `x`, contracted column `l`. -/
theorem lidx_v0 (p : Fin 10000) (q l : Fin 128) : Read.lidx_main_v0 (ix2 p q) l = ix2 p l :=
  funext fun a => Fin.ext (by match a with | ⟨0, _⟩ => rfl | ⟨1, _⟩ => rfl)

/-- First product, right operand: contracted row `l` of `W`, column `q`. -/
theorem ridx_v0 (p : Fin 10000) (q l : Fin 128) : Read.ridx_main_v0 (ix2 p q) l = ix2 l q :=
  funext fun a => Fin.ext (by match a with | ⟨0, _⟩ => rfl | ⟨1, _⟩ => rfl)

/-- Second product, left operand: row `p` of `adj`, contracted column `k`. -/
theorem lidx_v1 (p : Fin 10000) (q : Fin 128) (k : Fin 10000) : Read.lidx_main_v1 (ix2 p q) k = ix2 p k :=
  funext fun a => Fin.ext (by match a with | ⟨0, _⟩ => rfl | ⟨1, _⟩ => rfl)

/-- Second product, right operand: contracted row `k` of the support, column `q`. -/
theorem ridx_v1 (p : Fin 10000) (q : Fin 128) (k : Fin 10000) : Read.ridx_main_v1 (ix2 p q) k = ix2 k q :=
  funext fun a => Fin.ext (by match a with | ⟨0, _⟩ => rfl | ⟨1, _⟩ => rfl)

/-- The bias, broadcast to one row and then along the nodes, is read at the column `q` alone. -/
theorem idx_bias (p : Fin 10000) (q : Fin 128) : Read.idx_main_v2 (Read.idx_main_v3 (ix2 p q)) = ix1 q :=
  funext fun a => Fin.ext (by match a with | ⟨0, _⟩ => rfl)

/-! ## The reference's result is `G` -/

/-- The last stage of the reference, as a function of the four arguments, is `G`. -/
theorem val_is_G (x : FVec Ideal S10000x128 .f32) (adj : FVec Ideal S10000x10000 .f32)
    (W : FVec Ideal S128x128 .f32) (b : FVec Ideal S128 .f32) :
    Read.val_main_v5 (F := Ideal) x adj W b = Cert.Spec.G x adj W b := by
  funext i
  obtain ⟨p, q, rfl⟩ : ∃ (p : Fin 10000) (q : Fin 128), i = ix2 p q := ⟨i 0, i 1, eq_ix2 i⟩
  rw [Cert.Spec.G_ix2, Read.val_main_v5_apply, Read.val_main_v4_apply, Read.val_main_v1_apply,
    Read.val_main_v3_apply, Read.val_main_v2_apply, Read.val_main_call0_v0_apply,
    Read.val_main_call0_cst_apply]
  simp only [Read.val_main_v0_apply, lidx_v0, ridx_v0, lidx_v1, ridx_v1, idx_bias, Ideal.maximumf_def,
    Ideal.addf_def, Ideal.ofBits_def, Ideal.ofBits_zero_f32]
  rfl

/-- The term the run states for the result, as a function of the four argument arrays, is `G`. -/
theorem ref_is_G (x : FVec Ideal S10000x128 .f32) (adj : FVec Ideal S10000x10000 .f32)
    (W : FVec Ideal S128x128 .f32) (b : FVec Ideal S128 .f32) :
    (maximumf (addf (Host.dotGeneral dot_S10000x10000_S10000x128_S10000x128_1_0_0_1_n_n none adj
          (Host.dotGeneral dot_S10000x128_S128x128_S10000x128_1_0_0_1_n_n none x W))
        (broadcastInDim S10000x128 ![0, 1] bcast_S1x128_S10000x128_0_1
          (broadcastInDim S1x128 ![1] bcast_S128_S1x128_1 b)))
      (broadcastInDim S10000x128 ![] bcast_S_S10000x128 (constant S_ .f32 0x00000000#32))
        : (⟨S10000x128, .f32⟩ : BufTy).Contents (Elt Ideal))
      = Cert.Spec.G x adj W b :=
  (Read.val_main_v5_eq (F := Ideal) x adj W b).trans (val_is_G x adj W b)

/-! ## The run -/

/-- On every device, from any memory with zero counters, every weakly fair execution of the reference terminates
    with the result array at `G` of the four arguments' launch contents, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v5)
          = Cert.Spec.G (m' ((c.tc : Thread nD τ).loc main_arg0)) (m' ((c.tc : Thread nD τ).loc main_arg1))
              (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  (θ_run defs _ _).mono
    (fun _ h c => ⟨(h c).1.trans (ref_is_G _ _ _ _), (h c).2⟩)
    (Value.run (F := Ideal) m' ρ')

end Cert.RefValue

end
-- ==== Proof.lean ====
/-
  One graph-convolution layer, `out = max(adj · (x · W) + b, 0)`, as a pipelined kernel against its plain reference.

  The kernel walks 25 row tiles of 400 rows. At the first tile it computes the support `x · W` into a scratch that
  every later tile reads; at each tile it multiplies two 200-row halves of the adjacency (one array, read through two
  windows) by the support, adds the bias row, takes the maximum with zero and stores the two halves into the tile.
  Over the extended reals both programs compute the same function of the four arguments, index by index
  (`Cert.Spec.G`): the matrix products are finite sums over the contracted axis in both, so no law beyond the
  definitions joins the two sides, and the precondition is never opened.

  The frames of the two kernel programs are one argument, written once for every float instance: the body run in its
  two control cases, the body obligation of the pipeline, and the launch of a region whose two adjacency windows share
  their array's share in halves. The reference's frame is its run with the result dropped.
-/
import proofs.«173262_g47150150975849_cont_8to1_c_844_7_alg».proof.Defs
import proofs.«173262_g47150150975849_cont_8to1_c_844_7_alg».proof.Proof.Gen.Kernel
import proofs.«173262_g47150150975849_cont_8to1_c_844_7_alg».proof.Proof.Gen.KernelIdeal
import proofs.«173262_g47150150975849_cont_8to1_c_844_7_alg».proof.Proof.Gen.ReferenceIdeal
import proofs.«173262_g47150150975849_cont_8to1_c_844_7_alg».proof.Proof.Gen.Pre_finite_inputs
import proofs.«173262_g47150150975849_cont_8to1_c_844_7_alg».proof.Proof.K.Obligation
import proofs.«173262_g47150150975849_cont_8to1_c_844_7_alg».proof.Proof.K.Launch
import proofs.«173262_g47150150975849_cont_8to1_c_844_7_alg».proof.Proof.KI.Obligation
import proofs.«173262_g47150150975849_cont_8to1_c_844_7_alg».proof.Proof.KI.Launch
import proofs.«173262_g47150150975849_cont_8to1_c_844_7_alg».proof.Proof.KI.Final
import proofs.«173262_g47150150975849_cont_8to1_c_844_7_alg».proof.Proof.RefValue

noncomputable section

namespace Cert.Proof

open Idealize.ShloMosaic Idealize.ShloMosaic.TcCoe Idealize.SL.Sem

/-- The word-level kernel program runs to the end and leaves its arguments unchanged. -/
theorem frame_k : Cert.frame_Kernel (hKernel := Cert.Kernel.Gen.facts) (hPre_finite_inputs := Cert.Pre_finite_inputs.Gen.facts) :=
  fun m ρ _ =>
    (θ_run (Cert.Kernel.defs (F := Bits)) _ _).mono (fun _ h c => (h c).2)
      (Cert.Kernel.Hand.run_of_body (F := Bits) m ρ fun c => (Cert.Kernel.Hand.body_obligation m c).loose)

/-- The idealized kernel program's run: the result array at the specification of the arguments, the arguments unchanged. -/
theorem run_ki (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1)
            = Cert.Spec.G (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono
    (fun _ h c => ⟨(h c).1.trans (Cert.KernelIdeal.Hand.final m c), (h c).2⟩)
    (Cert.KernelIdeal.Hand.run_of_body (F := Ideal) m ρ fun c => (Cert.KernelIdeal.Hand.body_obligation m c).loose)

/-- The idealized kernel program's frame: its run with the result dropped. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2) (run_ki m ρ)

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.RefValue.ref_run m ρ)

/-- The ideal pass rewrote nothing: there is no ledger entry to state. -/
theorem preserves : Cert.preserves_Kernel_KernelIdeal := trivial

/-- From memories that agree on the four arguments both idealized programs end with the result array at the
    specification of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, run_ki m ρ, ?_⟩
  refine (θ_run (Cert.ReferenceIdeal.defs (F := Ideal)) _ _).mono (fun _ h c => ⟨(h c).1.trans ?_, (h c).2⟩)
    (Cert.RefValue.ref_run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
